-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S5000x128 : Shape := ⟨2, ![5000, 128]⟩
abbrev S5000x1 : Shape := ⟨2, ![5000, 1]⟩
abbrev S640000x128 : Shape := ⟨2, ![640000, 128]⟩
abbrev S1x128 : Shape := ⟨2, ![1, 128]⟩

abbrev nBuf : Space → Nat
  | .hbm => 73
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S100000, .f32⟩
  | .hbm, ⟨10, _⟩ => ⟨S640000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S640000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S_, .f32⟩
  | .hbm, ⟨39, _⟩ => ⟨S100000x128, .f32⟩
  | .hbm, ⟨40, _⟩ => ⟨S640000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S100000x128, .f32⟩
  | .hbm, ⟨56, _⟩ => ⟨S640000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x128, .f32⟩
  | .hbm, ⟨69, _⟩ => ⟨S_, .f32⟩
  | .hbm, ⟨70, _⟩ => ⟨S100000x128, .f32⟩
  | .hbm, ⟨71, _⟩ => ⟨S640000x1, .i32⟩
  | .hbm, ⟨72, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem4_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S100000, .f32⟩
  | .hbm, ⟨10, _⟩ => ⟨S640000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S640000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S_, .f32⟩
  | .hbm, ⟨39, _⟩ => ⟨S100000x128, .f32⟩
  | .hbm, ⟨40, _⟩ => ⟨S640000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S100000x128, .f32⟩
  | .hbm, ⟨62, _⟩ => ⟨S640000x1, .i32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S100000x128, .f32⟩
  | .hbm, ⟨82, _⟩ => ⟨S640000x1, .i32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.Tile.lean ====
/-
  The four tiles of a two-layer graph convolution, each read at an entry, and the same four whole-array functions
  as the host spells them.

  A node array X (n rows, d features) meets a per-node factor s in two spellings. Inside a kernel tile the factor
  arrives as an n × 1 column that is copied across the row; on the host it is a length-n vector made a column and
  then copied across the row by two broadcasts. Either way the entry (p, q) of the product is X(p, q) · s(p).
  A bias row b (1 × d in a tile, a length-d vector on the host) adds b(q) to every row. The dense layer multiplies
  the scaled rows by a d × e weight matrix: entry (p, q) is Σ_c (X(p, c) · s(p)) · W(c, q), and the casts of both
  factors to a narrower float format change nothing on the extended reals.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«176057_j21534966022320_1_alg».proof.Proof.LibPlainMatmul
import proofs.«176057_j21534966022320_1_alg».proof.Proof.LibLayoutCols

noncomputable section

namespace Cert.GcnTile

open Idealize.ShloMosaic Idealize.ShloMosaic.ValueIdx

/-! ## The whole-array functions, index by index -/

/-- Every row of `X` multiplied by its node's factor, the factors given as a column: entry (p, q) is X(p, q) · s(p, 0). -/
def scaled {n d : ℕ} (X : FVec Ideal ⟨2, ![n, d]⟩ .f32) (s : FVec Ideal ⟨2, ![n, 1]⟩ .f32) : FVec Ideal ⟨2, ![n, d]⟩ .f32 :=
  fun i => X i * s (ix2 (i 0) (0 : Fin 1))

theorem scaled_apply {n d : ℕ} (X : FVec Ideal ⟨2, ![n, d]⟩ .f32) (s : FVec Ideal ⟨2, ![n, 1]⟩ .f32) (p : Fin n) (q : Fin d) :
    scaled X s (ix2 p q) = X (ix2 p q) * s (ix2 p (0 : Fin 1)) := rfl

/-- Scaled rows plus a bias row: entry (p, q) is X(p, q) · s(p, 0) + b(0, q). -/
def scaledBiased {n d : ℕ} (X : FVec Ideal ⟨2, ![n, d]⟩ .f32) (s : FVec Ideal ⟨2, ![n, 1]⟩ .f32)
    (b : FVec Ideal ⟨2, ![1, d]⟩ .f32) : FVec Ideal ⟨2, ![n, d]⟩ .f32 :=
  fun i => X i * s (ix2 (i 0) (0 : Fin 1)) + b (ix2 (0 : Fin 1) (i 1))

theorem scaledBiased_apply {n d : ℕ} (X : FVec Ideal ⟨2, ![n, d]⟩ .f32) (s : FVec Ideal ⟨2, ![n, 1]⟩ .f32)
    (b : FVec Ideal ⟨2, ![1, d]⟩ .f32) (p : Fin n) (q : Fin d) :
    scaledBiased X s b (ix2 p q) = X (ix2 p q) * s (ix2 p (0 : Fin 1)) + b (ix2 (0 : Fin 1) q) := rfl

/-- The dense layer on scaled rows: entry (p, q) is Σ_c (X(p, c) · s(p, 0)) · W(c, q) + b(0, q). -/
def dense {n d e : ℕ} (X : FVec Ideal ⟨2, ![n, d]⟩ .f32) (s : FVec Ideal ⟨2, ![n, 1]⟩ .f32)
    (W : FVec Ideal ⟨2, ![d, e]⟩ .f32) (b : FVec Ideal ⟨2, ![1, e]⟩ .f32) : FVec Ideal ⟨2, ![n, e]⟩ .f32 :=
  fun i => (∑ c : Fin d, (X (ix2 (i 0) c) * s (ix2 (i 0) (0 : Fin 1))) * W (ix2 c (i 1))) + b (ix2 (0 : Fin 1) (i 1))

theorem dense_apply {n d e : ℕ} (X : FVec Ideal ⟨2, ![n, d]⟩ .f32) (s : FVec Ideal ⟨2, ![n, 1]⟩ .f32)
    (W : FVec Ideal ⟨2, ![d, e]⟩ .f32) (b : FVec Ideal ⟨2, ![1, e]⟩ .f32) (p : Fin n) (q : Fin e) :
    dense X s W b (ix2 p q) = (∑ c : Fin d, (X (ix2 p c) * s (ix2 p (0 : Fin 1))) * W (ix2 c q)) + b (ix2 (0 : Fin 1) q) := rfl

/-! ## A block of each function is the same function of the blocks

An array is cut into row blocks; `em` says where an entry of a block sits in the array. If the block of `X` holds
`X` at those places, the block of the factor column holds the factors of those rows, and the bias row and the weight
matrix are whole, then the block of the result is the result of the blocks. -/

theorem scaled_block {N n d : ℕ} (X : FVec Ideal ⟨2, ![N, d]⟩ .f32) (S : FVec Ideal ⟨2, ![N, 1]⟩ .f32)
    (x : FVec Ideal ⟨2, ![n, d]⟩ .f32) (s : FVec Ideal ⟨2, ![n, 1]⟩ .f32)
    (em : (⟨2, ![n, d]⟩ : Shape).Idx → (⟨2, ![N, d]⟩ : Shape).Idx)
    (hx : ∀ j, x j = X (em j))
    (hs : ∀ j : (⟨2, ![n, d]⟩ : Shape).Idx, s (ix2 (j 0) (0 : Fin 1)) = S (ix2 (em j 0) (0 : Fin 1)))
    (j : (⟨2, ![n, d]⟩ : Shape).Idx) : scaled x s j = scaled X S (em j) := by
  show x j * s (ix2 (j 0) (0 : Fin 1)) = X (em j) * S (ix2 (em j 0) (0 : Fin 1))
  rw [hx, hs]

theorem scaledBiased_block {N n d : ℕ} (X : FVec Ideal ⟨2, ![N, d]⟩ .f32) (S : FVec Ideal ⟨2, ![N, 1]⟩ .f32)
    (B : FVec Ideal ⟨2, ![1, d]⟩ .f32)
    (x : FVec Ideal ⟨2, ![n, d]⟩ .f32) (s : FVec Ideal ⟨2, ![n, 1]⟩ .f32) (b : FVec Ideal ⟨2, ![1, d]⟩ .f32)
    (em : (⟨2, ![n, d]⟩ : Shape).Idx → (⟨2, ![N, d]⟩ : Shape).Idx)
    (hx : ∀ j, x j = X (em j))
    (hs : ∀ j : (⟨2, ![n, d]⟩ : Shape).Idx, s (ix2 (j 0) (0 : Fin 1)) = S (ix2 (em j 0) (0 : Fin 1)))
    (hb : ∀ j : (⟨2, ![n, d]⟩ : Shape).Idx, b (ix2 (0 : Fin 1) (j 1)) = B (ix2 (0 : Fin 1) (em j 1)))
    (j : (⟨2, ![n, d]⟩ : Shape).Idx) : scaledBiased x s b j = scaledBiased X S B (em j) := by
  show x j * s (ix2 (j 0) (0 : Fin 1)) + b (ix2 (0 : Fin 1) (j 1))
    = X (em j) * S (ix2 (em j 0) (0 : Fin 1)) + B (ix2 (0 : Fin 1) (em j 1))
  rw [hx, hs, hb]

theorem dense_block {N n d e : ℕ} (X : FVec Ideal ⟨2, ![N, d]⟩ .f32) (S : FVec Ideal ⟨2, ![N, 1]⟩ .f32)
    (W : FVec Ideal ⟨2, ![d, e]⟩ .f32) (B : FVec Ideal ⟨2, ![1, e]⟩ .f32)
    (x : FVec Ideal ⟨2, ![n, d]⟩ .f32) (s : FVec Ideal ⟨2, ![n, 1]⟩ .f32)
    (w : FVec Ideal ⟨2, ![d, e]⟩ .f32) (b : FVec Ideal ⟨2, ![1, e]⟩ .f32)
    (em : (⟨2, ![n, e]⟩ : Shape).Idx → (⟨2, ![N, e]⟩ : Shape).Idx)
    (hx : ∀ (j : (⟨2, ![n, e]⟩ : Shape).Idx) (c : Fin d), x (ix2 (j 0) c) = X (ix2 (em j 0) c))
    (hs : ∀ j : (⟨2, ![n, e]⟩ : Shape).Idx, s (ix2 (j 0) (0 : Fin 1)) = S (ix2 (em j 0) (0 : Fin 1)))
    (hw : ∀ (j : (⟨2, ![n, e]⟩ : Shape).Idx) (c : Fin d), w (ix2 c (j 1)) = W (ix2 c (em j 1)))
    (hb : ∀ j : (⟨2, ![n, e]⟩ : Shape).Idx, b (ix2 (0 : Fin 1) (j 1)) = B (ix2 (0 : Fin 1) (em j 1)))
    (j : (⟨2, ![n, e]⟩ : Shape).Idx) : dense x s w b j = dense X S W B (em j) := by
  show (∑ c : Fin d, (x (ix2 (j 0) c) * s (ix2 (j 0) (0 : Fin 1))) * w (ix2 c (j 1))) + b (ix2 (0 : Fin 1) (j 1))
    = (∑ c : Fin d, (X (ix2 (em j 0) c) * S (ix2 (em j 0) (0 : Fin 1))) * W (ix2 c (em j 1))) + B (ix2 (0 : Fin 1) (em j 1))
  rw [hs, hb]
  exact congrArg (· + B (ix2 (0 : Fin 1) (em j 1))) (Finset.sum_congr rfl fun c _ => by rw [hx, hw])

/-! ## The kernel tiles' spellings -/

/-- A tile's product with the column copied across the row, at (p, q). -/
theorem tile_scale_apply {n d : ℕ} (x : FVec Ideal ⟨2, ![n, d]⟩ .f32) (s : FVec Ideal ⟨2, ![n, 1]⟩ .f32)
    (h1 : (⟨2, ![n, 1]⟩ : Shape).ShapeCasts ⟨2, ![n, 1]⟩) (h2 : (⟨2, ![n, 1]⟩ : Shape).Broadcasts ⟨2, ![n, d]⟩)
    (p : Fin n) (q : Fin d) :
    mulf x (broadcastTo ⟨2, ![n, d]⟩ (shapeCast ⟨2, ![n, 1]⟩ s h1) h2) (ix2 p q) = x (ix2 p q) * s (ix2 p (0 : Fin 1)) := by
  rw [mulf_apply, LibLayoutCols.broadcastTo_a1_ab_apply, shapeCast_self]

/-- The scaling tile is `scaled`. -/
theorem tile_scale_eq {n d : ℕ} (x : FVec Ideal ⟨2, ![n, d]⟩ .f32) (s : FVec Ideal ⟨2, ![n, 1]⟩ .f32)
    (h1 : (⟨2, ![n, 1]⟩ : Shape).ShapeCasts ⟨2, ![n, 1]⟩) (h2 : (⟨2, ![n, 1]⟩ : Shape).Broadcasts ⟨2, ![n, d]⟩) :
    mulf x (broadcastTo ⟨2, ![n, d]⟩ (shapeCast ⟨2, ![n, 1]⟩ s h1) h2) = scaled x s := by
  funext i
  obtain ⟨p, q, rfl⟩ : ∃ (p : Fin n) (q : Fin d), i = ix2 p q := ⟨i 0, i 1, eq_ix2 i⟩
  rw [tile_scale_apply, scaled_apply]

/-- The same with the tile first cast to its own shape (the form two of the kernels print). -/
theorem tile_scale_cast_eq {n d : ℕ} (x : FVec Ideal ⟨2, ![n, d]⟩ .f32) (s : FVec Ideal ⟨2, ![n, 1]⟩ .f32)
    (h0 : (⟨2, ![n, d]⟩ : Shape).ShapeCasts ⟨2, ![n, d]⟩)
    (h1 : (⟨2, ![n, 1]⟩ : Shape).ShapeCasts ⟨2, ![n, 1]⟩) (h2 : (⟨2, ![n, 1]⟩ : Shape).Broadcasts ⟨2, ![n, d]⟩) :
    mulf (shapeCast ⟨2, ![n, d]⟩ x h0) (broadcastTo ⟨2, ![n, d]⟩ (shapeCast ⟨2, ![n, 1]⟩ s h1) h2) = scaled x s := by
  rw [shapeCast_self, tile_scale_eq]

/-- The scale-and-bias tile is `scaledBiased`. -/
theorem tile_scale_bias_eq {n d : ℕ} (x : FVec Ideal ⟨2, ![n, d]⟩ .f32) (s : FVec Ideal ⟨2, ![n, 1]⟩ .f32)
    (b : FVec Ideal ⟨2, ![1, d]⟩ .f32)
    (h0 : (⟨2, ![n, d]⟩ : Shape).ShapeCasts ⟨2, ![n, d]⟩)
    (h1 : (⟨2, ![n, 1]⟩ : Shape).ShapeCasts ⟨2, ![n, 1]⟩) (h2 : (⟨2, ![n, 1]⟩ : Shape).Broadcasts ⟨2, ![n, d]⟩)
    (h3 : (⟨2, ![1, d]⟩ : Shape).ShapeCasts ⟨2, ![1, d]⟩) (h4 : (⟨2, ![1, d]⟩ : Shape).Broadcasts ⟨2, ![n, d]⟩) :
    addf (mulf (shapeCast ⟨2, ![n, d]⟩ x h0) (broadcastTo ⟨2, ![n, d]⟩ (shapeCast ⟨2, ![n, 1]⟩ s h1) h2))
        (broadcastTo ⟨2, ![n, d]⟩ (shapeCast ⟨2, ![1, d]⟩ b h3) h4)
      = scaledBiased x s b := by
  funext i
  obtain ⟨p, q, rfl⟩ : ∃ (p : Fin n) (q : Fin d), i = ix2 p q := ⟨i 0, i 1, eq_ix2 i⟩
  rw [addf_apply, shapeCast_self x, tile_scale_apply, broadcastTo_1b_ab_apply, shapeCast_self, scaledBiased_apply]

/-- The dense tile is `dense`: the product into the zero accumulator is the plain sum, the casts to the narrower
    format are the identity. -/
theorem tile_dense_eq {n d e : ℕ} (x : FVec Ideal ⟨2, ![n, d]⟩ .f32) (s : FVec Ideal ⟨2, ![n, 1]⟩ .f32)
    (w : FVec Ideal ⟨2, ![d, e]⟩ .f32) (b : FVec Ideal ⟨2, ![1, e]⟩ .f32)
    (h0 : (⟨2, ![n, d]⟩ : Shape).ShapeCasts ⟨2, ![n, d]⟩)
    (h1 : (⟨2, ![n, 1]⟩ : Shape).ShapeCasts ⟨2, ![n, 1]⟩) (h2 : (⟨2, ![n, 1]⟩ : Shape).Broadcasts ⟨2, ![n, d]⟩)
    (h3 : (⟨2, ![1, e]⟩ : Shape).ShapeCasts ⟨2, ![1, e]⟩) (h4 : (⟨2, ![1, e]⟩ : Shape).Broadcasts ⟨2, ![n, e]⟩)
    (hlt : FTy.bits .bf16 < FTy.bits .f32) :
    addf (matmul (DotDims.plain n d e) none
            (truncf .bf16 (mulf (shapeCast ⟨2, ![n, d]⟩ x h0) (broadcastTo ⟨2, ![n, d]⟩ (shapeCast ⟨2, ![n, 1]⟩ s h1) h2)) hlt)
            (truncf .bf16 w hlt) (constant (⟨2, ![n, e]⟩ : Shape) .f32 0x00000000#32))
        (broadcastTo ⟨2, ![n, e]⟩ (shapeCast ⟨2, ![1, e]⟩ b h3) h4)
      = dense x s w b := by
  funext i
  obtain ⟨p, q, rfl⟩ : ∃ (p : Fin n) (q : Fin e), i = ix2 p q := ⟨i 0, i 1, eq_ix2 i⟩
  rw [addf_apply, LibPlainMatmul.matmul_plain_zero_apply, broadcastTo_1b_ab_apply, shapeCast_self b, dense_apply]
  refine congrArg (· + b (ix2 (0 : Fin 1) q)) (Finset.sum_congr rfl fun c _ => ?_)
  rw [truncf_apply, truncf_apply, shapeCast_self x, tile_scale_apply]

/-! ## The host's spellings -/

/-- A vector made a column by a broadcast along axis 0, then copied across the row, reads the vector's entry of the row. -/
theorem host_col_row_apply {n d : ℕ} {α : Type} (S : (⟨1, ![n]⟩ : Shape).Idx → α)
    (hb1 : (⟨1, ![n]⟩ : Shape).BroadcastsInDim ⟨2, ![n, 1]⟩ (![0] : Fin 1 → Fin 2))
    (hb2 : (⟨2, ![n, 1]⟩ : Shape).BroadcastsInDim ⟨2, ![n, d]⟩ (![0, 1] : Fin 2 → Fin 2)) (p : Fin n) (q : Fin d) :
    broadcastInDim ⟨2, ![n, d]⟩ ![0, 1] hb2 (broadcastInDim ⟨2, ![n, 1]⟩ ![0] hb1 S) (ix2 p q) = S (ix1 p) := by
  refine (broadcastInDim_apply (![0, 1] : Fin 2 → Fin 2) hb2 _ (ix2 p q) (ix2 p (0 : Fin 1)) fun ax => ?_).trans ?_
  · match ax with
    | ⟨0, _⟩ =>
      show p.val = if n = 1 then 0 else p.val
      split
      · have := p.isLt; omega
      · rfl
    | ⟨1, _⟩ => rfl
  · refine broadcastInDim_apply (![0] : Fin 1 → Fin 2) hb1 S (ix2 p (0 : Fin 1)) (ix1 p) fun ax => ?_
    match ax with
    | ⟨0, _⟩ =>
      show p.val = if n = 1 then 0 else p.val
      split
      · have := p.isLt; omega
      · rfl

/-- A length-d vector made a 1 × d row by a broadcast along axis 1, then copied down the rows, reads the vector's
    entry of the column. -/
theorem host_row_rows_apply {n d : ℕ} {α : Type} (B : (⟨1, ![d]⟩ : Shape).Idx → α)
    (hb1 : (⟨1, ![d]⟩ : Shape).BroadcastsInDim ⟨2, ![1, d]⟩ (![1] : Fin 1 → Fin 2))
    (hb2 : (⟨2, ![1, d]⟩ : Shape).BroadcastsInDim ⟨2, ![n, d]⟩ (![0, 1] : Fin 2 → Fin 2)) (p : Fin n) (q : Fin d) :
    broadcastInDim ⟨2, ![n, d]⟩ ![0, 1] hb2 (broadcastInDim ⟨2, ![1, d]⟩ ![1] hb1 B) (ix2 p q) = B (ix1 q) := by
  refine (broadcastInDim_apply (![0, 1] : Fin 2 → Fin 2) hb2 _ (ix2 p q) (ix2 (0 : Fin 1) q) fun ax => ?_).trans ?_
  · match ax with
    | ⟨0, _⟩ => rfl
    | ⟨1, _⟩ =>
      show q.val = if d = 1 then 0 else q.val
      split
      · have := q.isLt; omega
      · rfl
  · refine broadcastInDim_apply (![1] : Fin 1 → Fin 2) hb1 B (ix2 (0 : Fin 1) q) (ix1 q) fun ax => ?_
    match ax with
    | ⟨0, _⟩ =>
      show q.val = if d = 1 then 0 else q.val
      split
      · have := q.isLt; omega
      · rfl

/-- The host's scaling is `scaled` at the vector reshaped to a column. -/
theorem host_scale_eq {n d : ℕ} (X : FVec Ideal ⟨2, ![n, d]⟩ .f32) (S : FVec Ideal ⟨1, ![n]⟩ .f32)
    (hb1 : (⟨1, ![n]⟩ : Shape).BroadcastsInDim ⟨2, ![n, 1]⟩ (![0] : Fin 1 → Fin 2))
    (hb2 : (⟨2, ![n, 1]⟩ : Shape).BroadcastsInDim ⟨2, ![n, d]⟩ (![0, 1] : Fin 2 → Fin 2))
    (hc : (⟨1, ![n]⟩ : Shape).ShapeCasts ⟨2, ![n, 1]⟩) :
    mulf X (broadcastInDim ⟨2, ![n, d]⟩ ![0, 1] hb2 (broadcastInDim ⟨2, ![n, 1]⟩ ![0] hb1 S))
      = scaled X (shapeCast ⟨2, ![n, 1]⟩ S hc) := by
  funext i
  obtain ⟨p, q, rfl⟩ : ∃ (p : Fin n) (q : Fin d), i = ix2 p q := ⟨i 0, i 1, eq_ix2 i⟩
  rw [mulf_apply, host_col_row_apply, scaled_apply, LibLayoutCols.shapeCast_a_a1_apply]

/-- The host's scale-and-bias is `scaledBiased` at the factor reshaped to a column and the bias reshaped to a row. -/
theorem host_scale_bias_eq {n d : ℕ} (X : FVec Ideal ⟨2, ![n, d]⟩ .f32) (S : FVec Ideal ⟨1, ![n]⟩ .f32)
    (B : FVec Ideal ⟨1, ![d]⟩ .f32)
    (hb1 : (⟨1, ![n]⟩ : Shape).BroadcastsInDim ⟨2, ![n, 1]⟩ (![0] : Fin 1 → Fin 2))
    (hb2 : (⟨2, ![n, 1]⟩ : Shape).BroadcastsInDim ⟨2, ![n, d]⟩ (![0, 1] : Fin 2 → Fin 2))
    (hr1 : (⟨1, ![d]⟩ : Shape).BroadcastsInDim ⟨2, ![1, d]⟩ (![1] : Fin 1 → Fin 2))
    (hr2 : (⟨2, ![1, d]⟩ : Shape).BroadcastsInDim ⟨2, ![n, d]⟩ (![0, 1] : Fin 2 → Fin 2))
    (hc : (⟨1, ![n]⟩ : Shape).ShapeCasts ⟨2, ![n, 1]⟩) (hr : (⟨1, ![d]⟩ : Shape).ShapeCasts ⟨2, ![1, d]⟩) :
    addf (mulf X (broadcastInDim ⟨2, ![n, d]⟩ ![0, 1] hb2 (broadcastInDim ⟨2, ![n, 1]⟩ ![0] hb1 S)))
        (broadcastInDim ⟨2, ![n, d]⟩ ![0, 1] hr2 (broadcastInDim ⟨2, ![1, d]⟩ ![1] hr1 B))
      = scaledBiased X (shapeCast ⟨2, ![n, 1]⟩ S hc) (shapeCast ⟨2, ![1, d]⟩ B hr) := by
  funext i
  obtain ⟨p, q, rfl⟩ : ∃ (p : Fin n) (q : Fin d), i = ix2 p q := ⟨i 0, i 1, eq_ix2 i⟩
  rw [addf_apply, mulf_apply, host_col_row_apply, host_row_rows_apply, scaledBiased_apply,
    LibLayoutCols.shapeCast_a_a1_apply, shapeCast_a_1a_apply]

/-- The host's dense layer (scale, dot_general, bias) is `dense` at the same reshaped factor and bias. -/
theorem host_dense_eq {n d e : ℕ} (X : FVec Ideal ⟨2, ![n, d]⟩ .f32) (S : FVec Ideal ⟨1, ![n]⟩ .f32)
    (W : FVec Ideal ⟨2, ![d, e]⟩ .f32) (B : FVec Ideal ⟨1, ![e]⟩ .f32)
    (hb1 : (⟨1, ![n]⟩ : Shape).BroadcastsInDim ⟨2, ![n, 1]⟩ (![0] : Fin 1 → Fin 2))
    (hb2 : (⟨2, ![n, 1]⟩ : Shape).BroadcastsInDim ⟨2, ![n, d]⟩ (![0, 1] : Fin 2 → Fin 2))
    (hr1 : (⟨1, ![e]⟩ : Shape).BroadcastsInDim ⟨2, ![1, e]⟩ (![1] : Fin 1 → Fin 2))
    (hr2 : (⟨2, ![1, e]⟩ : Shape).BroadcastsInDim ⟨2, ![n, e]⟩ (![0, 1] : Fin 2 → Fin 2))
    (hc : (⟨1, ![n]⟩ : Shape).ShapeCasts ⟨2, ![n, 1]⟩) (hr : (⟨1, ![e]⟩ : Shape).ShapeCasts ⟨2, ![1, e]⟩) :
    addf (Host.dotGeneral (DotDims.plain n d e) none
            (mulf X (broadcastInDim ⟨2, ![n, d]⟩ ![0, 1] hb2 (broadcastInDim ⟨2, ![n, 1]⟩ ![0] hb1 S))) W)
        (broadcastInDim ⟨2, ![n, e]⟩ ![0, 1] hr2 (broadcastInDim ⟨2, ![1, e]⟩ ![1] hr1 B))
      = dense X (shapeCast ⟨2, ![n, 1]⟩ S hc) W (shapeCast ⟨2, ![1, e]⟩ B hr) := by
  funext i
  obtain ⟨p, q, rfl⟩ : ∃ (p : Fin n) (q : Fin e), i = ix2 p q := ⟨i 0, i 1, eq_ix2 i⟩
  rw [addf_apply, StackMember.dotGeneral_plain_apply, host_row_rows_apply, dense_apply, shapeCast_a_1a_apply]
  refine congrArg (· + B (ix1 q)) (Finset.sum_congr rfl fun c _ => ?_)
  rw [mulf_apply, host_col_row_apply, LibLayoutCols.shapeCast_a_a1_apply]

end Cert.GcnTile

end
-- ==== Proof.Region0.lean ====
/-
  The first scaling region: what it leaves in its output array.

  The region walks 20 row blocks of 5000 nodes. At block t it reads rows 5000·t … 5000·t + 4999 of the node array and
  of the factor column, multiplies every row by its node's factor, and writes the product back to the same rows of
  the output. The row blocks tile the 100000 rows, so the output array ends holding, at every entry (p, q),
  X(p, q) · s(p): the function `Cert.GcnTile.scaled` of the two arrays as the region finds them.
-/
import proofs.«176057_j21534966022320_1_alg».proof.Proof.Gen.KernelIdeal.Frame
import proofs.«176057_j21534966022320_1_alg».proof.Proof.Tile
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The node array and the factor column as the region finds them. -/
abbrev nodes (c : Dev nD) : FVec Ideal S100000x128 .f32 := V c main_arg0
abbrev factors (c : Dev nD) : FVec Ideal S100000x1 .f32 := V c main_v11

theorem hz : (![0, 0] : Fin 2 → Nat) = fun _ => 0 := funext fun a => by fin_cases a <;> rfl

/-- The body's one store writes the rows of its block scaled by their factors. -/
theorem pay_eq (x0 : Vec Ideal S5000x128 .f32) (x1 : Vec Ideal S5000x1 .f32) :
    k0_pay1 x0 x1 = Cert.GcnTile.scaled (n := 5000) (d := 128) x0 x1 := by
  unfold k0_pay1
  exact Cert.GcnTile.tile_scale_eq (n := 5000) (d := 128) x0 x1 _ _

/-- Every window's block at point t is row block t, column block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- What point t writes back is block t of the scaled array. -/
theorem flushed_eq (c : Dev nD) (t : Fin cfg0.N) :
    (dat0 V c).flushed 2 t
      = ((cfg0.win 2).blk t).view.read (Elt Ideal) (Cert.GcnTile.scaled (nodes V c) (factors V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  rw [pay_eq]
  obtain ⟨e0, e1, e2, e3, e4, e5⟩ := idx_facts t
  funext j
  show Cert.GcnTile.scaled (n := 5000) (d := 128) (iblk0 V c 0 t) (iblk0 V c 1 t) j
    = Cert.GcnTile.scaled (nodes V c) (factors V c) (((cfg0.win 2).blk t).view.emb j)
  refine Cert.GcnTile.scaled_block (nodes V c) (factors V c) (iblk0 V c 0 t) (iblk0 V c 1 t)
    (((cfg0.win 2).blk t).view.emb) ?_ ?_ j
  · -- the block of the node array holds the array's rows 5000·t + …
    intro y
    show V c main_arg0 (((cfg0.win 0).blk t).view.emb y) = V c main_arg0 (((cfg0.win 2).blk t).view.emb y)
    refine congrArg (V c main_arg0) ?_
    funext a; apply Fin.ext
    match a with
    | ⟨0, _⟩ =>
      show win0_0.index t (0 : Fin 2) * 5000 + 1 * (y 0).val = win0_2.index t (0 : Fin 2) * 5000 + 1 * (y 0).val
      omega
    | ⟨1, _⟩ =>
      show win0_0.index t (1 : Fin 2) * 128 + 1 * (y 1).val = win0_2.index t (1 : Fin 2) * 128 + 1 * (y 1).val
      omega
  · -- the block of the factor column holds the factors of the same rows
    intro y
    show V c main_v11 (((cfg0.win 1).blk t).view.emb (ix2 (y 0) (0 : Fin 1)))
      = V c main_v11 (ix2 ((((cfg0.win 2).blk t).view.emb y) 0) (0 : Fin 1))
    refine congrArg (V c main_v11) ?_
    funext a; apply Fin.ext
    match a with
    | ⟨0, _⟩ =>
      show win0_1.index t (0 : Fin 2) * 5000 + 1 * (y 0).val = win0_2.index t (0 : Fin 2) * 5000 + 1 * (y 0).val
      omega
    | ⟨1, _⟩ =>
      show win0_1.index t (1 : Fin 2) * 1 + 1 * 0 = 0
      omega

/-- An entry of the output array is in point t's block iff its row is among the block's 5000 rows. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v13).slice (win0_2.rect t)).set ↔ _
  rw [View.set_slice_whole, Rect.mem_set_unit]
  exact Iff.rfl

/-- The row blocks tile the array: row p is in block p / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := idx_onto ⟨(i 0).val / 5000, by omega⟩
  have q0' : win0_2.index t (0 : Fin 2) = (i 0).val / 5000 := q0
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE OUTPUT ARRAY after the region: the node array with every row scaled by its factor. -/
theorem final (c : Dev nD) :
    (dat0 V c).arrAt 2 cfg0.N = Cert.GcnTile.scaled (nodes V c) (factors V c) :=
  (dat0 V c).arrAt_eq_of_cover 2 (Cert.GcnTile.scaled (nodes V c) (factors V c)) (fun t _ => flushed_eq V c t) cover

end Cert.KernelIdeal.Region0

end
-- ==== Proof.Region1.lean ====
/-
  The scale-and-bias region: what it leaves in its output array.

  The region walks 20 row blocks of 5000 nodes. At block t it reads rows 5000·t … 5000·t + 4999 of the aggregated node
  array and of the factor column, and the whole 1 × 128 bias row; it multiplies every row by its node's factor, adds
  the bias row, and writes the result back to the same rows of the output. The row blocks tile the 100000 rows, so
  the output array ends holding, at every entry (p, q), X(p, q) · s(p) + b(q): `Cert.GcnTile.scaledBiased` of the
  three arrays as the region finds them.
-/
import proofs.«176057_j21534966022320_1_alg».proof.Proof.Gen.KernelIdeal.Frame
import proofs.«176057_j21534966022320_1_alg».proof.Proof.Tile
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregated node array, the factor column and the bias row as the region finds them. -/
abbrev nodes (c : Dev nD) : FVec Ideal S100000x128 .f32 := V c main_v23
abbrev factors (c : Dev nD) : FVec Ideal S100000x1 .f32 := V c main_v12
abbrev bias (c : Dev nD) : FVec Ideal S1x128 .f32 := V c main_v24

theorem hz : (![0, 0] : Fin 2 → Nat) = fun _ => 0 := funext fun a => by fin_cases a <;> rfl

/-- The body's one store writes the rows of its block scaled by their factors, plus the bias row. -/
theorem pay_eq (x0 : Vec Ideal S5000x128 .f32) (x1 : Vec Ideal S5000x1 .f32) (x2 : Vec Ideal S1x128 .f32) :
    k1_pay1 x0 x1 x2 = Cert.GcnTile.scaledBiased (n := 5000) (d := 128) x0 x1 x2 := by
  unfold k1_pay1
  exact Cert.GcnTile.tile_scale_bias_eq (n := 5000) (d := 128) x0 x1 x2 _ _ _ _ _

/-- The tiled windows' block at point t is row block t, column block 0; the bias row's block is the whole row. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto : ∀ q : Fin 20, ∃ t : Fin cfg1.N, win1_3.index t (0 : Fin 2) = q.val ∧ win1_3.index t (1 : Fin 2) = 0 :=
  (by decide +kernel : ∀ q : Fin 20, ∃ t : Fin grid1.N, win1_3.index t (0 : Fin 2) = q.val ∧ win1_3.index t (1 : Fin 2) = 0)

/-- What point t writes back is block t of the scaled and biased array. -/
theorem flushed_eq (c : Dev nD) (t : Fin cfg1.N) :
    (dat1 V c).flushed 3 t
      = ((cfg1.win 3).blk t).view.read (Elt Ideal) (Cert.GcnTile.scaledBiased (nodes V c) (factors V c) (bias V c)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  rw [pay_eq]
  obtain ⟨e0, e1, e2, e3, e4, e5, e6, e7⟩ := idx_facts t
  funext j
  show Cert.GcnTile.scaledBiased (n := 5000) (d := 128) (iblk1 V c 0 t) (iblk1 V c 1 t) (iblk1 V c 2 t) j
    = Cert.GcnTile.scaledBiased (nodes V c) (factors V c) (bias V c) (((cfg1.win 3).blk t).view.emb j)
  refine Cert.GcnTile.scaledBiased_block (nodes V c) (factors V c) (bias V c) (iblk1 V c 0 t) (iblk1 V c 1 t) (iblk1 V c 2 t)
    (((cfg1.win 3).blk t).view.emb) ?_ ?_ ?_ j
  · -- the block of the node array holds the array's rows 5000·t + …
    intro y
    show V c main_v23 (((cfg1.win 0).blk t).view.emb y) = V c main_v23 (((cfg1.win 3).blk t).view.emb y)
    refine congrArg (V c main_v23) ?_
    funext a; apply Fin.ext
    match a with
    | ⟨0, _⟩ =>
      show win1_0.index t (0 : Fin 2) * 5000 + 1 * (y 0).val = win1_3.index t (0 : Fin 2) * 5000 + 1 * (y 0).val
      omega
    | ⟨1, _⟩ =>
      show win1_0.index t (1 : Fin 2) * 128 + 1 * (y 1).val = win1_3.index t (1 : Fin 2) * 128 + 1 * (y 1).val
      omega
  · -- the block of the factor column holds the factors of the same rows
    intro y
    show V c main_v12 (((cfg1.win 1).blk t).view.emb (ix2 (y 0) (0 : Fin 1)))
      = V c main_v12 (ix2 ((((cfg1.win 3).blk t).view.emb y) 0) (0 : Fin 1))
    refine congrArg (V c main_v12) ?_
    funext a; apply Fin.ext
    match a with
    | ⟨0, _⟩ =>
      show win1_1.index t (0 : Fin 2) * 5000 + 1 * (y 0).val = win1_3.index t (0 : Fin 2) * 5000 + 1 * (y 0).val
      omega
    | ⟨1, _⟩ =>
      show win1_1.index t (1 : Fin 2) * 1 + 1 * 0 = 0
      omega
  · -- the bias row's block is the whole row: column q of the block is column q of the row
    intro y
    show V c main_v24 (((cfg1.win 2).blk t).view.emb (ix2 (0 : Fin 1) (y 1)))
      = V c main_v24 (ix2 (0 : Fin 1) ((((cfg1.win 3).blk t).view.emb y) 1))
    refine congrArg (V c main_v24) ?_
    funext a; apply Fin.ext
    match a with
    | ⟨0, _⟩ =>
      show win1_2.index t (0 : Fin 2) * 1 + 1 * 0 = 0
      omega
    | ⟨1, _⟩ =>
      show win1_2.index t (1 : Fin 2) * 128 + 1 * (y 1).val = win1_3.index t (1 : Fin 2) * 128 + 1 * (y 1).val
      omega

/-- An entry of the output array is in point t's block iff its row is among the block's 5000 rows. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v25).slice (win1_3.rect t)).set ↔ _
  rw [View.set_slice_whole, Rect.mem_set_unit]
  exact Iff.rfl

/-- The row blocks tile the array: row p is in block p / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, q0, q1⟩ := idx_onto ⟨(i 0).val / 5000, by omega⟩
  have q0' : win1_3.index t (0 : Fin 2) = (i 0).val / 5000 := q0
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE OUTPUT ARRAY after the region: every row scaled by its factor, plus the bias row. -/
theorem final (c : Dev nD) :
    (dat1 V c).arrAt 3 cfg1.N = Cert.GcnTile.scaledBiased (nodes V c) (factors V c) (bias V c) :=
  (dat1 V c).arrAt_eq_of_cover 3 (Cert.GcnTile.scaledBiased (nodes V c) (factors V c) (bias V c))
    (fun t _ => flushed_eq V c t) cover

end Cert.KernelIdeal.Region1

end
-- ==== Proof.Region2.lean ====
/-
  The second scaling region: what it leaves in its output array.

  The region walks 20 row blocks of 5000 nodes. At block t it reads rows 5000·t … 5000·t + 4999 of the node array and
  of the factor column, multiplies every row by its node's factor, and writes the product back to the same rows of
  the output. The row blocks tile the 100000 rows, so the output array ends holding, at every entry (p, q),
  X(p, q) · s(p): the function `Cert.GcnTile.scaled` of the two arrays as the region finds them.
-/
import proofs.«176057_j21534966022320_1_alg».proof.Proof.Gen.KernelIdeal.Frame
import proofs.«176057_j21534966022320_1_alg».proof.Proof.Tile
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The node array and the factor column as the region finds them. -/
abbrev nodes (c : Dev nD) : FVec Ideal S100000x128 .f32 := V c main_v25
abbrev factors (c : Dev nD) : FVec Ideal S100000x1 .f32 := V c main_v11

theorem hz : (![0, 0] : Fin 2 → Nat) = fun _ => 0 := funext fun a => by fin_cases a <;> rfl

/-- The body's one store writes the rows of its block scaled by their factors. -/
theorem pay_eq (x0 : Vec Ideal S5000x128 .f32) (x1 : Vec Ideal S5000x1 .f32) :
    k2_pay1 x0 x1 = Cert.GcnTile.scaled (n := 5000) (d := 128) x0 x1 := by
  unfold k2_pay1
  exact Cert.GcnTile.tile_scale_cast_eq (n := 5000) (d := 128) x0 x1 _ _ _

/-- Every window's block at point t is row block t, column block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto : ∀ q : Fin 20, ∃ t : Fin cfg2.N, win2_2.index t (0 : Fin 2) = q.val ∧ win2_2.index t (1 : Fin 2) = 0 :=
  (by decide +kernel : ∀ q : Fin 20, ∃ t : Fin grid2.N, win2_2.index t (0 : Fin 2) = q.val ∧ win2_2.index t (1 : Fin 2) = 0)

/-- What point t writes back is block t of the scaled array. -/
theorem flushed_eq (c : Dev nD) (t : Fin cfg2.N) :
    (dat2 V c).flushed 2 t
      = ((cfg2.win 2).blk t).view.read (Elt Ideal) (Cert.GcnTile.scaled (nodes V c) (factors V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S5000x1) hz]
  rw [pay_eq]
  obtain ⟨e0, e1, e2, e3, e4, e5⟩ := idx_facts t
  funext j
  show Cert.GcnTile.scaled (n := 5000) (d := 128) (iblk2 V c 0 t) (iblk2 V c 1 t) j
    = Cert.GcnTile.scaled (nodes V c) (factors V c) (((cfg2.win 2).blk t).view.emb j)
  refine Cert.GcnTile.scaled_block (nodes V c) (factors V c) (iblk2 V c 0 t) (iblk2 V c 1 t)
    (((cfg2.win 2).blk t).view.emb) ?_ ?_ j
  · -- the block of the node array holds the array's rows 5000·t + …
    intro y
    show V c main_v25 (((cfg2.win 0).blk t).view.emb y) = V c main_v25 (((cfg2.win 2).blk t).view.emb y)
    refine congrArg (V c main_v25) ?_
    funext a; apply Fin.ext
    match a with
    | ⟨0, _⟩ =>
      show win2_0.index t (0 : Fin 2) * 5000 + 1 * (y 0).val = win2_2.index t (0 : Fin 2) * 5000 + 1 * (y 0).val
      omega
    | ⟨1, _⟩ =>
      show win2_0.index t (1 : Fin 2) * 128 + 1 * (y 1).val = win2_2.index t (1 : Fin 2) * 128 + 1 * (y 1).val
      omega
  · -- the block of the factor column holds the factors of the same rows
    intro y
    show V c main_v11 (((cfg2.win 1).blk t).view.emb (ix2 (y 0) (0 : Fin 1)))
      = V c main_v11 (ix2 ((((cfg2.win 2).blk t).view.emb y) 0) (0 : Fin 1))
    refine congrArg (V c main_v11) ?_
    funext a; apply Fin.ext
    match a with
    | ⟨0, _⟩ =>
      show win2_1.index t (0 : Fin 2) * 5000 + 1 * (y 0).val = win2_2.index t (0 : Fin 2) * 5000 + 1 * (y 0).val
      omega
    | ⟨1, _⟩ =>
      show win2_1.index t (1 : Fin 2) * 1 + 1 * 0 = 0
      omega

/-- An entry of the output array is in point t's block iff its row is among the block's 5000 rows. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v26).slice (win2_2.rect t)).set ↔ _
  rw [View.set_slice_whole, Rect.mem_set_unit]
  exact Iff.rfl

/-- The row blocks tile the array: row p is in block p / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, q0, q1⟩ := idx_onto ⟨(i 0).val / 5000, by omega⟩
  have q0' : win2_2.index t (0 : Fin 2) = (i 0).val / 5000 := q0
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- THE OUTPUT ARRAY after the region: the node array with every row scaled by its factor. -/
theorem final (c : Dev nD) :
    (dat2 V c).arrAt 2 cfg2.N = Cert.GcnTile.scaled (nodes V c) (factors V c) :=
  (dat2 V c).arrAt_eq_of_cover 2 (Cert.GcnTile.scaled (nodes V c) (factors V c)) (fun t _ => flushed_eq V c t) cover

end Cert.KernelIdeal.Region2

end
-- ==== Proof.Region3.lean ====
/-
  The dense-layer region: what it leaves in its output array.

  The region walks 20 row blocks of 5000 nodes. At block t it reads rows 5000·t … 5000·t + 4999 of the aggregated node
  array and of the factor column, the whole 128 × 128 weight matrix and the whole 1 × 128 bias row; it scales every
  row by its node's factor, multiplies the scaled rows by the weight matrix (the two factors cast to a narrower float
  format, which changes nothing on the extended reals, the product accumulated from zero), adds the bias row, and
  writes the result back to the same rows of the output. A row of the product depends on that row of the left factor
  only, and the row blocks tile the 100000 rows, so the output array ends holding, at every entry (p, q),
  Σ_c (X(p, c) · s(p)) · W(c, q) + b(q): `Cert.GcnTile.dense` of the four arrays as the region finds them.
-/
import proofs.«176057_j21534966022320_1_alg».proof.Proof.Gen.KernelIdeal.Frame
import proofs.«176057_j21534966022320_1_alg».proof.Proof.Tile
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregated node array, the factor column, the weight matrix and the bias row as the region finds them. -/
abbrev nodes (c : Dev nD) : FVec Ideal S100000x128 .f32 := V c main_v36
abbrev factors (c : Dev nD) : FVec Ideal S100000x1 .f32 := V c main_v12
abbrev weights (c : Dev nD) : FVec Ideal S128x128 .f32 := V c main_arg3
abbrev bias (c : Dev nD) : FVec Ideal S1x128 .f32 := V c main_v37

theorem hz : (![0, 0] : Fin 2 → Nat) = fun _ => 0 := funext fun a => by fin_cases a <;> rfl

/-- The printed contraction (left columns against right rows, no batch axis) is the plain matrix product's. -/
theorem dot_eq : dot_S5000x128_S128x128_S5000x128_1_0_0_1_n_n = DotDims.plain 5000 128 128 := rfl

/-- The body's one store writes the dense layer of its block. -/
theorem pay_eq (x0 : Vec Ideal S5000x128 .f32) (x1 : Vec Ideal S5000x1 .f32) (x2 : Vec Ideal S128x128 .f32)
    (x3 : Vec Ideal S1x128 .f32) :
    k3_pay1 x0 x1 x2 x3 = Cert.GcnTile.dense (n := 5000) (d := 128) (e := 128) x0 x1 x2 x3 := by
  unfold k3_pay1
  rw [dot_eq]
  exact Cert.GcnTile.tile_dense_eq (n := 5000) (d := 128) (e := 128) x0 x1 x2 x3 _ _ _ _ _ _

/-- The tiled windows' block at point t is row block t, column block 0; the weight matrix's and the bias row's block
    is the whole array. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every row block is some point's. -/
theorem idx_onto : ∀ q : Fin 20, ∃ t : Fin cfg3.N, win3_4.index t (0 : Fin 2) = q.val ∧ win3_4.index t (1 : Fin 2) = 0 :=
  (by decide +kernel : ∀ q : Fin 20, ∃ t : Fin grid3.N, win3_4.index t (0 : Fin 2) = q.val ∧ win3_4.index t (1 : Fin 2) = 0)

/-- What point t writes back is block t of the dense layer's array. -/
theorem flushed_eq (c : Dev nD) (t : Fin cfg3.N) :
    (dat3 V c).flushed 4 t
      = ((cfg3.win 4).blk t).view.read (Elt Ideal)
          (Cert.GcnTile.dense (nodes V c) (factors V c) (weights V c) (bias V c)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz,
    View.ld_unit_zero (S := S128x128) hz, View.ld_unit_zero (S := S1x128) hz]
  rw [pay_eq]
  obtain ⟨e0, e1, e2, e3, e4, e5, e6, e7, e8, e9⟩ := idx_facts t
  funext j
  show Cert.GcnTile.dense (n := 5000) (d := 128) (e := 128) (iblk3 V c 0 t) (iblk3 V c 1 t) (iblk3 V c 2 t) (iblk3 V c 3 t) j
    = Cert.GcnTile.dense (nodes V c) (factors V c) (weights V c) (bias V c) (((cfg3.win 4).blk t).view.emb j)
  refine Cert.GcnTile.dense_block (nodes V c) (factors V c) (weights V c) (bias V c)
    (iblk3 V c 0 t) (iblk3 V c 1 t) (iblk3 V c 2 t) (iblk3 V c 3 t) (((cfg3.win 4).blk t).view.emb) ?_ ?_ ?_ ?_ j
  · -- row r of the node block is row 5000·t + r of the array, column by column
    intro y k
    show V c main_v36 (((cfg3.win 0).blk t).view.emb (ix2 (y 0) k))
      = V c main_v36 (ix2 ((((cfg3.win 4).blk t).view.emb y) 0) k)
    refine congrArg (V c main_v36) ?_
    funext a; apply Fin.ext
    match a with
    | ⟨0, _⟩ =>
      show win3_0.index t (0 : Fin 2) * 5000 + 1 * (y 0).val = win3_4.index t (0 : Fin 2) * 5000 + 1 * (y 0).val
      omega
    | ⟨1, _⟩ =>
      show win3_0.index t (1 : Fin 2) * 128 + 1 * k.val = k.val
      omega
  · -- the block of the factor column holds the factors of the same rows
    intro y
    show V c main_v12 (((cfg3.win 1).blk t).view.emb (ix2 (y 0) (0 : Fin 1)))
      = V c main_v12 (ix2 ((((cfg3.win 4).blk t).view.emb y) 0) (0 : Fin 1))
    refine congrArg (V c main_v12) ?_
    funext a; apply Fin.ext
    match a with
    | ⟨0, _⟩ =>
      show win3_1.index t (0 : Fin 2) * 5000 + 1 * (y 0).val = win3_4.index t (0 : Fin 2) * 5000 + 1 * (y 0).val
      omega
    | ⟨1, _⟩ =>
      show win3_1.index t (1 : Fin 2) * 1 + 1 * 0 = 0
      omega
  · -- the weight matrix's block is the whole matrix
    intro y k
    show V c main_arg3 (((cfg3.win 2).blk t).view.emb (ix2 k (y 1)))
      = V c main_arg3 (ix2 k ((((cfg3.win 4).blk t).view.emb y) 1))
    refine congrArg (V c main_arg3) ?_
    funext a; apply Fin.ext
    match a with
    | ⟨0, _⟩ =>
      show win3_2.index t (0 : Fin 2) * 128 + 1 * k.val = k.val
      omega
    | ⟨1, _⟩ =>
      show win3_2.index t (1 : Fin 2) * 128 + 1 * (y 1).val = win3_4.index t (1 : Fin 2) * 128 + 1 * (y 1).val
      omega
  · -- the bias row's block is the whole row
    intro y
    show V c main_v37 (((cfg3.win 3).blk t).view.emb (ix2 (0 : Fin 1) (y 1)))
      = V c main_v37 (ix2 (0 : Fin 1) ((((cfg3.win 4).blk t).view.emb y) 1))
    refine congrArg (V c main_v37) ?_
    funext a; apply Fin.ext
    match a with
    | ⟨0, _⟩ =>
      show win3_3.index t (0 : Fin 2) * 1 + 1 * 0 = 0
      omega
    | ⟨1, _⟩ =>
      show win3_3.index t (1 : Fin 2) * 128 + 1 * (y 1).val = win3_4.index t (1 : Fin 2) * 128 + 1 * (y 1).val
      omega

/-- An entry of the output array is in point t's block iff its row is among the block's 5000 rows. -/
theorem mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v38).slice (win3_4.rect t)).set ↔ _
  rw [View.set_slice_whole, Rect.mem_set_unit]
  exact Iff.rfl

/-- The row blocks tile the array: row p is in block p / 5000. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, q0, q1⟩ := idx_onto ⟨(i 0).val / 5000, by omega⟩
  have q0' : win3_4.index t (0 : Fin 2) = (i 0).val / 5000 := q0
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- THE OUTPUT ARRAY after the region: the dense layer of the scaled rows. -/
theorem final (c : Dev nD) :
    (dat3 V c).arrAt 4 cfg3.N = Cert.GcnTile.dense (nodes V c) (factors V c) (weights V c) (bias V c) :=
  (dat3 V c).arrAt_eq_of_cover 4 (Cert.GcnTile.dense (nodes V c) (factors V c) (weights V c) (bias V c))
    (fun t _ => flushed_eq V c t) cover

end Cert.KernelIdeal.Region3

end
-- ==== Proof.KValue.lean ====
/-
  The kernel program's result as a composition of named stages.

  The program alternates host stretches with four kernel regions. Its buffers' contents at every boundary are a fold
  from the launch memory: a host stretch rewrites the buffers its operations write, a region rewrites its output array
  with what its write-backs leave and keeps everything else. This module reads that fold back, buffer by buffer and
  boundary by boundary, down to the arguments:
    * the two factor columns are the inverse root of the clamped edge counts (`invSqrtDeg`), reshaped to columns;
    * region 0 leaves the node features scaled by the source-side factors (`h0`);
    * the first aggregation sums, for every node, the rows of its in-neighbours (`g0`);
    * region 1 scales by the destination-side factors and adds the first bias (`h1`); region 2 scales again by the
      source-side factors (`h1s`); the second aggregation gives `g1`;
    * region 3 is the dense layer on the scaled rows (`h2`), and the last aggregation is the result (`out`).
  The two host stretches that recur (`invSqrtDeg`, `aggregate`) are carried as whole-array functions and never opened.
  A buffer that a stretch or a region does not write keeps its contents; an input array of a region is left as entered.
-/
import proofs.«176057_j21534966022320_1_alg».proof.Proof.Gen.KernelIdeal.Frame
import proofs.«176057_j21534966022320_1_alg».proof.Proof.Tile
import proofs.«176057_j21534966022320_1_alg».proof.Proof.Region0
import proofs.«176057_j21534966022320_1_alg».proof.Proof.Region1
import proofs.«176057_j21534966022320_1_alg».proof.Proof.Region2
import proofs.«176057_j21534966022320_1_alg».proof.Proof.Region3
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.Pipeline (Dat Cfg Window)

/-! ## The shared host stretches -/

/-- One over the square root of each node's edge count (the count floored at one). -/
def invSqrtDeg (idx : (⟨S640000, .i32⟩ : BufTy).Contents (Elt Ideal)) : FVec Ideal S100000 .f32 :=
  Host.rsqrt (F := Ideal) (maximumf (broadcastInDim S100000 ![] bcast_S_S100000 (id (constant S_ .f32 0x3F800000#32))) (Host.scatterAdd scatter_S100000_S640000x1_S640000_n_0_0_1 (broadcastInDim S100000 ![] bcast_S_S100000 (constant S_ .f32 0x00000000#32)) (broadcastInDim S640000x1 ![0] bcast_S640000_S640000x1_0 idx) (broadcastInDim S640000 ![] bcast_S_S640000 (constant S_ .f32 0x3F800000#32))))

/-- The sum, over the edges arriving at each node, of the source node's row. -/
def aggregate (h : FVec Ideal S100000x128 .f32) (src dst : (⟨S640000, .i32⟩ : BufTy).Contents (Elt Ideal)) :
    FVec Ideal S100000x128 .f32 :=
  Host.scatterAdd (F := Ideal) scatter_S100000x128_S640000x1_S640000x128_1_0_0_1 (broadcastInDim S100000x128 ![] bcast_S_S100000x128 (constant S_ .f32 0x00000000#32)) (broadcastInDim S640000x1 ![0] bcast_S640000_S640000x1_0 dst) (Host.gather gather_S100000x128_S640000x1_S640000x128_1_0_n_n_0_1_1128 h (broadcastInDim S640000x1 ![0] bcast_S640000_S640000x1_0 (select (cmpi .slt src (broadcastInDim S640000 ![] bcast_S_S640000 (constantI S_ 32 0#32))) (addi src (broadcastInDim S640000 ![] bcast_S_S640000 (constantI S_ 32 100000#32))) src)))

/-- A per-node vector as a column, a per-feature vector as a row (the program's two reshapes). -/
abbrev col (s : FVec Ideal S100000 .f32) : FVec Ideal S100000x1 .f32 := shapeCast S100000x1 s shapeCasts_S100000_S100000x1
abbrev row (b : FVec Ideal S128 .f32) : FVec Ideal S1x128 .f32 := shapeCast S1x128 b shapeCasts_S128_S1x128

variable (m : (ℓ : Loc nD τ sig) → Buf (Elt Ideal) ℓ) (ρ : Dev nD → PrngReg) (c : Dev nD)

/-- The arguments as the program finds them: node features, edge sources, edge destinations, weights, two biases. -/
abbrev feat : FVec Ideal S100000x128 .f32 := m ((c : Thread nD τ).loc main_arg0)
abbrev src : (⟨S640000, .i32⟩ : BufTy).Contents (Elt Ideal) := m ((c : Thread nD τ).loc main_arg1)
abbrev dst : (⟨S640000, .i32⟩ : BufTy).Contents (Elt Ideal) := m ((c : Thread nD τ).loc main_arg2)
abbrev w1 : FVec Ideal S128x128 .f32 := m ((c : Thread nD τ).loc main_arg3)
abbrev b0 : FVec Ideal S128 .f32 := m ((c : Thread nD τ).loc main_arg4)
abbrev b1 : FVec Ideal S128 .f32 := m ((c : Thread nD τ).loc main_arg5)

/-! ## The stages -/

/-- Features scaled by the source-side factors (region 0's output). -/
def h0 : FVec Ideal S100000x128 .f32 := Cert.GcnTile.scaled (n := 100000) (d := 128) (feat m c) (col (invSqrtDeg (src m c)))
/-- First aggregation. -/
def g0 : FVec Ideal S100000x128 .f32 := aggregate (h0 m c) (src m c) (dst m c)
/-- Scaled by the destination-side factors, plus the first bias (region 1's output). -/
def h1 : FVec Ideal S100000x128 .f32 :=
  Cert.GcnTile.scaledBiased (n := 100000) (d := 128) (g0 m c) (col (invSqrtDeg (dst m c))) (row (b0 m c))
/-- Scaled again by the source-side factors (region 2's output). -/
def h1s : FVec Ideal S100000x128 .f32 := Cert.GcnTile.scaled (n := 100000) (d := 128) (h1 m c) (col (invSqrtDeg (src m c)))
/-- Second aggregation. -/
def g1 : FVec Ideal S100000x128 .f32 := aggregate (h1s m c) (src m c) (dst m c)
/-- The dense layer on the rows scaled by the destination-side factors (region 3's output). -/
def h2 : FVec Ideal S100000x128 .f32 :=
  Cert.GcnTile.dense (n := 100000) (d := 128) (e := 128) (g1 m c) (col (invSqrtDeg (dst m c))) (w1 m c) (row (b1 m c))
/-- The last aggregation: the program's result. -/
def out : FVec Ideal S100000x128 .f32 := aggregate (h2 m c) (src m c) (dst m c)

/-! ## At region 0's entry: the arguments untouched, the two factor columns computed -/

theorem W5_arg0 : W5 m ρ c (Proc.devRef .tc main_arg0) = feat m c := by
  show StableHlo.after hostOps0_4 (W4 m ρ c) (Proc.devRef .tc main_arg0) = _
  after_results
  all_goals rfl
theorem W5_arg1 : W5 m ρ c (Proc.devRef .tc main_arg1) = src m c := by
  show StableHlo.after hostOps0_4 (W4 m ρ c) (Proc.devRef .tc main_arg1) = _
  after_results
  all_goals rfl
theorem W5_arg2 : W5 m ρ c (Proc.devRef .tc main_arg2) = dst m c := by
  show StableHlo.after hostOps0_4 (W4 m ρ c) (Proc.devRef .tc main_arg2) = _
  after_results
  all_goals rfl
theorem W5_arg3 : W5 m ρ c (Proc.devRef .tc main_arg3) = w1 m c := by
  show StableHlo.after hostOps0_4 (W4 m ρ c) (Proc.devRef .tc main_arg3) = _
  after_results
  all_goals rfl
theorem W5_arg4 : W5 m ρ c (Proc.devRef .tc main_arg4) = b0 m c := by
  show StableHlo.after hostOps0_4 (W4 m ρ c) (Proc.devRef .tc main_arg4) = _
  after_results
  all_goals rfl
theorem W5_arg5 : W5 m ρ c (Proc.devRef .tc main_arg5) = b1 m c := by
  show StableHlo.after hostOps0_4 (W4 m ρ c) (Proc.devRef .tc main_arg5) = _
  after_results
  all_goals rfl
theorem W5_v11 : W5 m ρ c (Proc.devRef .tc main_v11) = col (invSqrtDeg (src m c)) := by
  show StableHlo.after hostOps0_4 (W4 m ρ c) (Proc.devRef .tc main_v11) = _
  after_results
  all_goals rfl
theorem W5_v12 : W5 m ρ c (Proc.devRef .tc main_v12) = col (invSqrtDeg (dst m c)) := by
  show StableHlo.after hostOps0_4 (W4 m ρ c) (Proc.devRef .tc main_v12) = _
  after_results
  all_goals rfl

/-! ## After region 0 -/

theorem W6_v13 : W6 m ρ c (Proc.devRef .tc main_v13) = h0 m c := by
  refine (W6_arr m ρ c 2).trans ?_
  rw [Region0.final]
  show Cert.GcnTile.scaled (n := 100000) (d := 128) (W5 m ρ c (Proc.devRef .tc main_arg0)) (W5 m ρ c (Proc.devRef .tc main_v11)) = _
  rw [W5_arg0, W5_v11]
  rfl
theorem W6_v11 : W6 m ρ c (Proc.devRef .tc main_v11) = col (invSqrtDeg (src m c)) :=
  ((W6_arr m ρ c 1).trans (((dat0 (V5 m ρ) c).arrAt_in 1 rfl _).trans (A_eq0 (V5 m ρ) c 1))).trans (W5_v11 m ρ c)
theorem W6_arg1 : W6 m ρ c (Proc.devRef .tc main_arg1) = src m c :=
  (W6_of_ne m ρ c main_arg1 (by decide)).trans (W5_arg1 m ρ c)
theorem W6_arg2 : W6 m ρ c (Proc.devRef .tc main_arg2) = dst m c :=
  (W6_of_ne m ρ c main_arg2 (by decide)).trans (W5_arg2 m ρ c)
theorem W6_arg3 : W6 m ρ c (Proc.devRef .tc main_arg3) = w1 m c :=
  (W6_of_ne m ρ c main_arg3 (by decide)).trans (W5_arg3 m ρ c)
theorem W6_arg4 : W6 m ρ c (Proc.devRef .tc main_arg4) = b0 m c :=
  (W6_of_ne m ρ c main_arg4 (by decide)).trans (W5_arg4 m ρ c)
theorem W6_arg5 : W6 m ρ c (Proc.devRef .tc main_arg5) = b1 m c :=
  (W6_of_ne m ρ c main_arg5 (by decide)).trans (W5_arg5 m ρ c)
theorem W6_v12 : W6 m ρ c (Proc.devRef .tc main_v12) = col (invSqrtDeg (dst m c)) :=
  (W6_of_ne m ρ c main_v12 (by decide)).trans (W5_v12 m ρ c)

/-! ## After the first aggregation stretch (region 1's entry) -/

theorem W7_v23 : W7 m ρ c (Proc.devRef .tc main_v23) = g0 m c := by
  show StableHlo.after hostOps1 (W6 m ρ c) (Proc.devRef .tc main_v23) = _
  after_results
  rw [W6_v13, W6_arg1, W6_arg2]
  rfl
theorem W7_v24 : W7 m ρ c (Proc.devRef .tc main_v24) = row (b0 m c) := by
  show StableHlo.after hostOps1 (W6 m ρ c) (Proc.devRef .tc main_v24) = _
  after_results
  rw [W6_arg4]
  rfl
theorem W7_arg1 : W7 m ρ c (Proc.devRef .tc main_arg1) = src m c := by
  show StableHlo.after hostOps1 (W6 m ρ c) (Proc.devRef .tc main_arg1) = _
  after_results
  all_goals exact W6_arg1 m ρ c
theorem W7_arg2 : W7 m ρ c (Proc.devRef .tc main_arg2) = dst m c := by
  show StableHlo.after hostOps1 (W6 m ρ c) (Proc.devRef .tc main_arg2) = _
  after_results
  all_goals exact W6_arg2 m ρ c
theorem W7_arg3 : W7 m ρ c (Proc.devRef .tc main_arg3) = w1 m c := by
  show StableHlo.after hostOps1 (W6 m ρ c) (Proc.devRef .tc main_arg3) = _
  after_results
  all_goals exact W6_arg3 m ρ c
theorem W7_arg5 : W7 m ρ c (Proc.devRef .tc main_arg5) = b1 m c := by
  show StableHlo.after hostOps1 (W6 m ρ c) (Proc.devRef .tc main_arg5) = _
  after_results
  all_goals exact W6_arg5 m ρ c
theorem W7_v11 : W7 m ρ c (Proc.devRef .tc main_v11) = col (invSqrtDeg (src m c)) := by
  show StableHlo.after hostOps1 (W6 m ρ c) (Proc.devRef .tc main_v11) = _
  after_results
  all_goals exact W6_v11 m ρ c
theorem W7_v12 : W7 m ρ c (Proc.devRef .tc main_v12) = col (invSqrtDeg (dst m c)) := by
  show StableHlo.after hostOps1 (W6 m ρ c) (Proc.devRef .tc main_v12) = _
  after_results
  all_goals exact W6_v12 m ρ c

/-! ## After region 1 (region 2's entry) -/

theorem W8_v25 : W8 m ρ c (Proc.devRef .tc main_v25) = h1 m c := by
  refine (W8_arr m ρ c 3).trans ?_
  rw [Region1.final]
  show Cert.GcnTile.scaledBiased (n := 100000) (d := 128) (W7 m ρ c (Proc.devRef .tc main_v23)) (W7 m ρ c (Proc.devRef .tc main_v12))
    (W7 m ρ c (Proc.devRef .tc main_v24)) = _
  rw [W7_v23, W7_v12, W7_v24]
  rfl
theorem W8_v12 : W8 m ρ c (Proc.devRef .tc main_v12) = col (invSqrtDeg (dst m c)) :=
  ((W8_arr m ρ c 1).trans (((dat1 (V7 m ρ) c).arrAt_in 1 rfl _).trans (A_eq1 (V7 m ρ) c 1))).trans (W7_v12 m ρ c)
theorem W8_arg1 : W8 m ρ c (Proc.devRef .tc main_arg1) = src m c :=
  (W8_of_ne m ρ c main_arg1 (by decide)).trans (W7_arg1 m ρ c)
theorem W8_arg2 : W8 m ρ c (Proc.devRef .tc main_arg2) = dst m c :=
  (W8_of_ne m ρ c main_arg2 (by decide)).trans (W7_arg2 m ρ c)
theorem W8_arg3 : W8 m ρ c (Proc.devRef .tc main_arg3) = w1 m c :=
  (W8_of_ne m ρ c main_arg3 (by decide)).trans (W7_arg3 m ρ c)
theorem W8_arg5 : W8 m ρ c (Proc.devRef .tc main_arg5) = b1 m c :=
  (W8_of_ne m ρ c main_arg5 (by decide)).trans (W7_arg5 m ρ c)
theorem W8_v11 : W8 m ρ c (Proc.devRef .tc main_v11) = col (invSqrtDeg (src m c)) :=
  (W8_of_ne m ρ c main_v11 (by decide)).trans (W7_v11 m ρ c)

/-! ## After region 2 -/

theorem W9_v26 : W9 m ρ c (Proc.devRef .tc main_v26) = h1s m c := by
  refine (W9_arr m ρ c 2).trans ?_
  rw [Region2.final]
  show Cert.GcnTile.scaled (n := 100000) (d := 128) (W8 m ρ c (Proc.devRef .tc main_v25)) (W8 m ρ c (Proc.devRef .tc main_v11)) = _
  rw [W8_v25, W8_v11]
  rfl
theorem W9_arg1 : W9 m ρ c (Proc.devRef .tc main_arg1) = src m c :=
  (W9_of_ne m ρ c main_arg1 (by decide)).trans (W8_arg1 m ρ c)
theorem W9_arg2 : W9 m ρ c (Proc.devRef .tc main_arg2) = dst m c :=
  (W9_of_ne m ρ c main_arg2 (by decide)).trans (W8_arg2 m ρ c)
theorem W9_arg3 : W9 m ρ c (Proc.devRef .tc main_arg3) = w1 m c :=
  (W9_of_ne m ρ c main_arg3 (by decide)).trans (W8_arg3 m ρ c)
theorem W9_arg5 : W9 m ρ c (Proc.devRef .tc main_arg5) = b1 m c :=
  (W9_of_ne m ρ c main_arg5 (by decide)).trans (W8_arg5 m ρ c)
theorem W9_v12 : W9 m ρ c (Proc.devRef .tc main_v12) = col (invSqrtDeg (dst m c)) :=
  (W9_of_ne m ρ c main_v12 (by decide)).trans (W8_v12 m ρ c)

/-! ## After the second aggregation stretch (region 3's entry) -/

theorem W10_v36 : W10 m ρ c (Proc.devRef .tc main_v36) = g1 m c := by
  show StableHlo.after hostOps3 (W9 m ρ c) (Proc.devRef .tc main_v36) = _
  after_results
  rw [W9_v26, W9_arg1, W9_arg2]
  rfl
theorem W10_v37 : W10 m ρ c (Proc.devRef .tc main_v37) = row (b1 m c) := by
  show StableHlo.after hostOps3 (W9 m ρ c) (Proc.devRef .tc main_v37) = _
  after_results
  rw [W9_arg5]
  rfl
theorem W10_arg1 : W10 m ρ c (Proc.devRef .tc main_arg1) = src m c := by
  show StableHlo.after hostOps3 (W9 m ρ c) (Proc.devRef .tc main_arg1) = _
  after_results
  all_goals exact W9_arg1 m ρ c
theorem W10_arg2 : W10 m ρ c (Proc.devRef .tc main_arg2) = dst m c := by
  show StableHlo.after hostOps3 (W9 m ρ c) (Proc.devRef .tc main_arg2) = _
  after_results
  all_goals exact W9_arg2 m ρ c
theorem W10_arg3 : W10 m ρ c (Proc.devRef .tc main_arg3) = w1 m c := by
  show StableHlo.after hostOps3 (W9 m ρ c) (Proc.devRef .tc main_arg3) = _
  after_results
  all_goals exact W9_arg3 m ρ c
theorem W10_v12 : W10 m ρ c (Proc.devRef .tc main_v12) = col (invSqrtDeg (dst m c)) := by
  show StableHlo.after hostOps3 (W9 m ρ c) (Proc.devRef .tc main_v12) = _
  after_results
  all_goals exact W9_v12 m ρ c

/-! ## After region 3 -/

theorem W11_v38 : W11 m ρ c (Proc.devRef .tc main_v38) = h2 m c := by
  refine (W11_arr m ρ c 4).trans ?_
  rw [Region3.final]
  show Cert.GcnTile.dense (n := 100000) (d := 128) (e := 128) (W10 m ρ c (Proc.devRef .tc main_v36)) (W10 m ρ c (Proc.devRef .tc main_v12))
    (W10 m ρ c (Proc.devRef .tc main_arg3)) (W10 m ρ c (Proc.devRef .tc main_v37)) = _
  rw [W10_v36, W10_v12, W10_arg3, W10_v37]
  rfl
theorem W11_arg1 : W11 m ρ c (Proc.devRef .tc main_arg1) = src m c :=
  (W11_of_ne m ρ c main_arg1 (by decide)).trans (W10_arg1 m ρ c)
theorem W11_arg2 : W11 m ρ c (Proc.devRef .tc main_arg2) = dst m c :=
  (W11_of_ne m ρ c main_arg2 (by decide)).trans (W10_arg2 m ρ c)

/-! ## After the last aggregation stretch: the result -/

/-- THE RESULT BUFFER at the last boundary is the composition of the stages. -/
theorem result : W12 m ρ c (Proc.devRef .tc main_v48) = out m c := by
  show StableHlo.after hostOps4 (W11 m ρ c) (Proc.devRef .tc main_v48) = _
  after_results
  rw [W11_v38, W11_arg1, W11_arg2]
  rfl

end Cert.KernelIdeal.KValue

end
-- ==== Proof.RefValue.lean ====
/-
  The reference program's result as a composition of named stages.

  The reference is a two-layer graph convolution followed by one more aggregation. Two host stretches occur again and
  again and are named here once, as whole-array functions that are never opened:
    * `invSqrtDeg idx`: for every node, one over the square root of the number of edges whose endpoint `idx` is that
      node, the count floored at one (a scatter-add of ones, a maximum with one, an inverse square root);
    * `aggregate h src dst`: for every node, the sum over the edges arriving at it (`dst`) of the row of `h` of the
      edge's source (`src`, a negative index wrapped once): a gather of rows and a scatter-add.
  Between them sit the three layers, which the host spells with broadcasts: rows scaled by a per-node factor; rows
  scaled plus a bias row; rows scaled, multiplied by the weight matrix, plus a bias row. Each is the index-level
  function of the same name in `Cert.GcnTile`, at the factor reshaped to a column and the bias reshaped to a row.
-/
import proofs.«176057_j21534966022320_1_alg».proof.Proof.Gen.ReferenceIdeal.Run
import proofs.«176057_j21534966022320_1_alg».proof.Proof.Tile

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

/-! ## The shared host stretches -/

/-- One over the square root of each node's edge count (the count floored at one). -/
def invSqrtDeg (idx : (⟨S640000, .i32⟩ : BufTy).Contents (Elt Ideal)) : FVec Ideal S100000 .f32 :=
  Host.rsqrt (F := Ideal) (maximumf (broadcastInDim S100000 ![] bcast_S_S100000 (id (constant S_ .f32 0x3F800000#32))) (Host.scatterAdd scatter_S100000_S640000x1_S640000_n_0_0_1 (broadcastInDim S100000 ![] bcast_S_S100000 (constant S_ .f32 0x00000000#32)) (broadcastInDim S640000x1 ![0] bcast_S640000_S640000x1_0 idx) (broadcastInDim S640000 ![] bcast_S_S640000 (constant S_ .f32 0x3F800000#32))))

/-- The sum, over the edges arriving at each node, of the source node's row. -/
def aggregate (h : FVec Ideal S100000x128 .f32) (src dst : (⟨S640000, .i32⟩ : BufTy).Contents (Elt Ideal)) :
    FVec Ideal S100000x128 .f32 :=
  Host.scatterAdd (F := Ideal) scatter_S100000x128_S640000x1_S640000x128_1_0_0_1 (broadcastInDim S100000x128 ![] bcast_S_S100000x128 (constant S_ .f32 0x00000000#32)) (broadcastInDim S640000x1 ![0] bcast_S640000_S640000x1_0 dst) (Host.gather gather_S100000x128_S640000x1_S640000x128_1_0_n_n_0_1_1128 h (broadcastInDim S640000x1 ![0] bcast_S640000_S640000x1_0 (select (cmpi .slt src (broadcastInDim S640000 ![] bcast_S_S640000 (constantI S_ 32 0#32))) (addi src (broadcastInDim S640000 ![] bcast_S_S640000 (constantI S_ 32 100000#32))) src)))

/-! ## The three layers as the host spells them -/

/-- Rows scaled by a per-node factor: the factor made a column, the column copied across the row, a product. -/
def hostScale (X : FVec Ideal S100000x128 .f32) (s : FVec Ideal S100000 .f32) :
    FVec Ideal S100000x128 .f32 :=
  mulf (F := Ideal) X (broadcastInDim S100000x128 ![0, 1] bcast_S100000x1_S100000x128_0_1 (broadcastInDim S100000x1 ![0] bcast_S100000_S100000x1_0 s))

/-- Rows scaled, plus a bias vector copied down the rows. -/
def hostScaleBias (X : FVec Ideal S100000x128 .f32) (s : FVec Ideal S100000 .f32)
    (b : FVec Ideal S128 .f32) : FVec Ideal S100000x128 .f32 :=
  addf (F := Ideal) (mulf X (broadcastInDim S100000x128 ![0, 1] bcast_S100000x1_S100000x128_0_1 (broadcastInDim S100000x1 ![0] bcast_S100000_S100000x1_0 s))) (broadcastInDim S100000x128 ![0, 1] bcast_S1x128_S100000x128_0_1 (broadcastInDim S1x128 ![1] bcast_S128_S1x128_1 b))

/-- Rows scaled, multiplied by the weight matrix, plus a bias vector copied down the rows. -/
def hostDense (X : FVec Ideal S100000x128 .f32) (s : FVec Ideal S100000 .f32)
    (W : FVec Ideal S128x128 .f32) (b : FVec Ideal S128 .f32) :
    FVec Ideal S100000x128 .f32 :=
  addf (F := Ideal) (Host.dotGeneral dot_S100000x128_S128x128_S100000x128_1_0_0_1_n_n none (mulf X (broadcastInDim S100000x128 ![0, 1] bcast_S100000x1_S100000x128_0_1 (broadcastInDim S100000x1 ![0] bcast_S100000_S100000x1_0 s))) W) (broadcastInDim S100000x128 ![0, 1] bcast_S1x128_S100000x128_0_1 (broadcastInDim S1x128 ![1] bcast_S128_S1x128_1 b))

/-- A length-100000 vector as a 100000 × 1 column, a length-128 vector as a 1 × 128 row. -/
theorem colCasts : (⟨1, ![100000]⟩ : Shape).ShapeCasts ⟨2, ![100000, 1]⟩ := by decide
theorem rowCasts : (⟨1, ![128]⟩ : Shape).ShapeCasts ⟨2, ![1, 128]⟩ := by decide

/-- The printed contraction (left columns against right rows, no batch axis) is the plain matrix product's. -/
theorem dot_eq : dot_S100000x128_S128x128_S100000x128_1_0_0_1_n_n = DotDims.plain 100000 128 128 := rfl

theorem hostScale_eq (X : FVec Ideal S100000x128 .f32) (s : FVec Ideal S100000 .f32) :
    hostScale X s = Cert.GcnTile.scaled (n := 100000) (d := 128) X (shapeCast ⟨2, ![100000, 1]⟩ s colCasts) := by
  unfold hostScale
  exact Cert.GcnTile.host_scale_eq (n := 100000) (d := 128) X s _ _ colCasts

theorem hostScaleBias_eq (X : FVec Ideal S100000x128 .f32) (s : FVec Ideal S100000 .f32)
    (b : FVec Ideal S128 .f32) :
    hostScaleBias X s b = Cert.GcnTile.scaledBiased (n := 100000) (d := 128) X (shapeCast ⟨2, ![100000, 1]⟩ s colCasts)
      (shapeCast ⟨2, ![1, 128]⟩ b rowCasts) := by
  unfold hostScaleBias
  exact Cert.GcnTile.host_scale_bias_eq (n := 100000) (d := 128) X s b _ _ _ _ colCasts rowCasts

theorem hostDense_eq (X : FVec Ideal S100000x128 .f32) (s : FVec Ideal S100000 .f32)
    (W : FVec Ideal S128x128 .f32) (b : FVec Ideal S128 .f32) :
    hostDense X s W b = Cert.GcnTile.dense (n := 100000) (d := 128) (e := 128) X (shapeCast ⟨2, ![100000, 1]⟩ s colCasts) W
      (shapeCast ⟨2, ![1, 128]⟩ b rowCasts) := by
  unfold hostDense
  rw [dot_eq]
  exact Cert.GcnTile.host_dense_eq (n := 100000) (d := 128) (e := 128) X s W b _ _ _ _ colCasts rowCasts

/-! ## The result -/

variable (m : (ℓ : Loc nD τ sig) → Buf (Elt Ideal) ℓ) (c : Dev nD)

/-- The arguments as the program finds them: node features, edge sources, edge destinations, weights, two biases. -/
abbrev feat : FVec Ideal S100000x128 .f32 := m ((c.tc : Thread nD τ).loc main_arg0)
abbrev src : (⟨S640000, .i32⟩ : BufTy).Contents (Elt Ideal) := m ((c.tc : Thread nD τ).loc main_arg1)
abbrev dst : (⟨S640000, .i32⟩ : BufTy).Contents (Elt Ideal) := m ((c.tc : Thread nD τ).loc main_arg2)
abbrev w1 : FVec Ideal S128x128 .f32 := m ((c.tc : Thread nD τ).loc main_arg3)
abbrev b0 : FVec Ideal S128 .f32 := m ((c.tc : Thread nD τ).loc main_arg4)
abbrev b1 : FVec Ideal S128 .f32 := m ((c.tc : Thread nD τ).loc main_arg5)

/-- The reference's result is the composition of the named stages, in the host's spelling. -/
theorem res_stages :
    res_main_v59 (F := Ideal) m c
      = aggregate
          (hostDense
            (aggregate
              (hostScale
                (hostScaleBias (aggregate (hostScale (feat m c) (invSqrtDeg (src m c))) (src m c) (dst m c))
                  (invSqrtDeg (dst m c)) (b0 m c))
                (invSqrtDeg (src m c)))
              (src m c) (dst m c))
            (invSqrtDeg (dst m c)) (w1 m c) (b1 m c))
          (src m c) (dst m c) := by
  unfold res_main_v59 aggregate hostDense hostScale hostScaleBias invSqrtDeg
  rfl

/-- The same with every layer read index by index. -/
theorem res_eq :
    res_main_v59 (F := Ideal) m c
      = aggregate
          (Cert.GcnTile.dense (n := 100000) (d := 128) (e := 128)
            (aggregate
              (Cert.GcnTile.scaled (n := 100000) (d := 128)
                (Cert.GcnTile.scaledBiased (n := 100000) (d := 128)
                  (aggregate
                    (Cert.GcnTile.scaled (n := 100000) (d := 128) (feat m c)
                      (shapeCast ⟨2, ![100000, 1]⟩ (invSqrtDeg (src m c)) colCasts))
                    (src m c) (dst m c))
                  (shapeCast ⟨2, ![100000, 1]⟩ (invSqrtDeg (dst m c)) colCasts)
                  (shapeCast ⟨2, ![1, 128]⟩ (b0 m c) rowCasts))
                (shapeCast ⟨2, ![100000, 1]⟩ (invSqrtDeg (src m c)) colCasts))
              (src m c) (dst m c))
            (shapeCast ⟨2, ![100000, 1]⟩ (invSqrtDeg (dst m c)) colCasts) (w1 m c)
            (shapeCast ⟨2, ![1, 128]⟩ (b1 m c) rowCasts))
          (src m c) (dst m c) := by
  rw [res_stages, hostDense_eq, hostScale_eq, hostScaleBias_eq, hostScale_eq]

end Cert.ReferenceIdeal.RefValue

end
-- ==== Proof.Bridge.lean ====
/-
  The two programs compute one function.

  The kernel program's result (`Cert.KernelIdeal.KValue.out`) and the reference's (`res_main_v59`, read stage by stage
  in `Cert.ReferenceIdeal.RefValue.res_eq`) are the same composition: the inverse root of the clamped edge counts,
  rows scaled, an aggregation over in-edges, rows scaled plus a bias, rows scaled again, a second aggregation, the
  dense layer, a last aggregation. The shared host stretches are spelt by the same operations in both programs, so the
  two namings of each are one function; the three layers were brought to the same index-level functions on each side.
  What is left is that the arguments agree, which is the claim's hypothesis. No law of the extended reals is used beyond
  those inside the layer lemmas: the operations come in the same order on both sides, so finiteness of the inputs is
  never needed.
-/
import proofs.«176057_j21534966022320_1_alg».proof.Proof.KValue
import proofs.«176057_j21534966022320_1_alg».proof.Proof.RefValue

set_option maxRecDepth 16384

noncomputable section

namespace Cert.Bridge

open Idealize.ShloMosaic Idealize.ShloMosaic.TcCoe Idealize.SL.Sem

/-- The degree factors are computed by the same host operations in both programs. -/
theorem invSqrtDeg_eq : Cert.KernelIdeal.KValue.invSqrtDeg = Cert.ReferenceIdeal.RefValue.invSqrtDeg := rfl

/-- The aggregation over in-edges is the same gather and scatter-add in both programs. -/
theorem aggregate_eq : Cert.KernelIdeal.KValue.aggregate = Cert.ReferenceIdeal.RefValue.aggregate := rfl

/-- From arguments that agree, the reference's result is the kernel program's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : Cert.ReferenceIdeal.RefValue.feat m' c = Cert.KernelIdeal.KValue.feat m c)
    (e1 : Cert.ReferenceIdeal.RefValue.src m' c = Cert.KernelIdeal.KValue.src m c)
    (e2 : Cert.ReferenceIdeal.RefValue.dst m' c = Cert.KernelIdeal.KValue.dst m c)
    (e3 : Cert.ReferenceIdeal.RefValue.w1 m' c = Cert.KernelIdeal.KValue.w1 m c)
    (e4 : Cert.ReferenceIdeal.RefValue.b0 m' c = Cert.KernelIdeal.KValue.b0 m c)
    (e5 : Cert.ReferenceIdeal.RefValue.b1 m' c = Cert.KernelIdeal.KValue.b1 m c) :
    Cert.ReferenceIdeal.Value.res_main_v59 (F := Ideal) m' c = Cert.KernelIdeal.KValue.out m c := by
  rw [Cert.ReferenceIdeal.RefValue.res_eq, e0, e1, e2, e3, e4, e5]
  unfold Cert.KernelIdeal.KValue.out Cert.KernelIdeal.KValue.h2 Cert.KernelIdeal.KValue.g1 Cert.KernelIdeal.KValue.h1s
    Cert.KernelIdeal.KValue.h1 Cert.KernelIdeal.KValue.g0 Cert.KernelIdeal.KValue.h0
  rw [invSqrtDeg_eq, aggregate_eq]

end Cert.Bridge

end
-- ==== Proof.lean ====
/-
  The certificate of a two-layer graph convolution with a final neighbour sum, computed by four kernel regions among
  host gathers and scatter-adds, against the same network written with array operations only.

  With s_out = 1/sqrt(max(out-degree, 1)) and s_in = 1/sqrt(max(in-degree, 1)) per node, and A the sum over a node's
  in-edges of the source node's row, both programs compute
      A( ((A( (A(X · s_out) · s_in + b0) · s_out )) · s_in) · W1 + b1 ).
  The kernel program does the four row-wise stages (X · s_out; · s_in + b0; · s_out; (· s_in) · W1 + b1) in regions
  that walk 20 blocks of 5000 rows each; the reference does them on whole arrays. On the extended reals the two are
  the same function of the arguments, entry by entry: a cast to a narrower float format is the identity, a product
  accumulated from zero block by block is the plain sum, and a row of each stage depends on that row of its operands
  only, so the tiling does not matter.

  The three frames: the two kernel programs' are the generated frame certificates; the reference's is its run with
  the result dropped. The idealization rewrote no operation, so `preserves` is trivial. The value claim puts the
  kernel program's run (its result named as the last boundary's contents, then read back through the program to the
  arguments) beside the reference's run, and the two results are one function of arguments that agree.
-/
import proofs.«176057_j21534966022320_1_alg».proof.Defs
import proofs.«176057_j21534966022320_1_alg».proof.Proof.Gen.Kernel
import proofs.«176057_j21534966022320_1_alg».proof.Proof.Gen.Kernel.Skeleton
import proofs.«176057_j21534966022320_1_alg».proof.Proof.Gen.Kernel.Launch
import proofs.«176057_j21534966022320_1_alg».proof.Proof.Gen.Kernel.Points
import proofs.«176057_j21534966022320_1_alg».proof.Proof.Gen.Kernel.Frame
import proofs.«176057_j21534966022320_1_alg».proof.Proof.Gen.KernelIdeal
import proofs.«176057_j21534966022320_1_alg».proof.Proof.Gen.KernelIdeal.Skeleton
import proofs.«176057_j21534966022320_1_alg».proof.Proof.Gen.KernelIdeal.Launch
import proofs.«176057_j21534966022320_1_alg».proof.Proof.Gen.KernelIdeal.Points
import proofs.«176057_j21534966022320_1_alg».proof.Proof.Gen.KernelIdeal.Frame
import proofs.«176057_j21534966022320_1_alg».proof.Proof.Gen.ReferenceIdeal
import proofs.«176057_j21534966022320_1_alg».proof.Proof.Gen.ReferenceIdeal.Run
import proofs.«176057_j21534966022320_1_alg».proof.Proof.Gen.Pre_finite_inputs
import proofs.«176057_j21534966022320_1_alg».proof.Proof.KRun
import proofs.«176057_j21534966022320_1_alg».proof.Proof.KValue
import proofs.«176057_j21534966022320_1_alg».proof.Proof.RefValue
import proofs.«176057_j21534966022320_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result: the kernel program's run ends at the composition of its stages, the
    reference's at its composed term, and from arguments that agree the two are one function. -/
theorem algebraic : Cert.algebraic_KernelIdeal_ReferenceIdeal := by
  intro m ρ m' ρ' _ hagree
  refine ⟨fun c => Cert.KernelIdeal.KValue.out m c, ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    exact Cert.Bridge.result_eq m m' c (hagree c).1 (hagree c).2.1 (hagree c).2.2.1 (hagree c).2.2.2.1
      (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
